-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x512x1024 : Shape := ⟨3, ![32, 512, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x512x1024 : S_.BroadcastsInDim S32x512x1024 (![] : Fin 0 → Fin S32x512x1024.rank)
  reducesTo_S32x512x1024_S_d0_1_2 : S32x512x1024.ReducesTo [0, 1, 2] S_

variable [Facts]

def fn {F : FTy → Type} [FloatOps F] (main_arg0 : FVec F S32x1024x1024 .f32) (main_arg1 : FVec F S32x512x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S32x512x1024 : Shape := ⟨3, ![32, 512, 1024]⟩
abbrev S32x64x8x1024 : Shape := ⟨4, ![32, 64, 8, 1024]⟩
abbrev S_ : Shape := ⟨0, ![]⟩
abbrev S32x64x1024 : Shape := ⟨3, ![32, 64, 1024]⟩
abbrev S32x1024x64 : Shape := ⟨3, ![32, 1024, 64]⟩
abbrev S1x1024x1024 : Shape := ⟨3, ![1, 1024, 1024]⟩
abbrev S1x64x1024 : Shape := ⟨3, ![1, 64, 1024]⟩
abbrev S1x1024x64 : Shape := ⟨3, ![1, 1024, 64]⟩
abbrev S1024x1024 : Shape := ⟨2, ![1024, 1024]⟩
abbrev S64x1024 : Shape := ⟨2, ![64, 1024]⟩
abbrev S1024x64 : Shape := ⟨2, ![1024, 64]⟩
abbrev S1024 : Shape := ⟨1, ![1024]⟩
abbrev S1024x1 : Shape := ⟨2, ![1024, 1]⟩
abbrev S64 : Shape := ⟨1, ![64]⟩
abbrev S1x64 : Shape := ⟨2, ![1, 64]⟩

abbrev nBuf : Space → Nat
  | .hbm => 9
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S32x512x1024, .f32⟩
  | .hbm, ⟨2, _⟩ => ⟨S32x64x8x1024, .f32⟩
  | .hbm, ⟨3, _⟩ => ⟨S_, .f32⟩
  | .hbm, ⟨4, _⟩ => ⟨S32x64x1024, .f32⟩
  | .hbm, ⟨5, _⟩ => ⟨S_, .f32⟩
  | .hbm, ⟨6, _⟩ => ⟨S32x64x1024, .f32⟩
  | .hbm, ⟨7, _⟩ => ⟨S32x64x1024, .f32⟩
  | .hbm, ⟨8, _⟩ => ⟨S32x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x64, .f32⟩
  | .local _ .vmem, ⟨5, _⟩ => ⟨S1x1024x64, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x1024_S32x64x8x1024 : S32x512x1024.ShapeCasts S32x64x8x1024
  reducesTo_S32x64x8x1024_S32x64x1024_d2 : S32x64x8x1024.ReducesTo [2] S32x64x1024
  h_S_ : 0 < S_.numel
  bcast_S_S32x64x1024 : S_.BroadcastsInDim S32x64x1024 (![] : Fin 0 → Fin S32x64x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  reduces_S1024x1024_S1024 : S1024x1024.Reduces [1] S1024
  shapeCasts_S1024_S1024x1 : S1024.ShapeCasts S1024x1
  reduces_S64x1024_S64 : S64x1024.Reduces [1] S64
  broadcasts_S1024x1_S1024x64 : S1024x1.Broadcasts S1024x64
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x1024_S64x1024_S1024x64_1_1_0_0_n_n_wf : DotDims.WF S1024x1024 S64x1024 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S32x64x1024.size a
  hwx0_1 : ∀ i : grid0.Coords, EltTy.bits .f32 = 32 ∨ (Rect.block (s := S32x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x1024x64.size a
  hwx0_2 : ∀ i : grid0.Coords, EltTy.bits .f32 = 32 ∨ (Rect.block (s := S32x1024x64) S1x1024x64.size (cc0_transform_2 i) (hinb0_2 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x512x1024 : Shape := ⟨3, ![32, 512, 1024]⟩
abbrev S32x64x8x1024 : Shape := ⟨4, ![32, 64, 8, 1024]⟩
abbrev S_ : Shape := ⟨0, ![]⟩
abbrev S32x64x1024 : Shape := ⟨3, ![32, 64, 1024]⟩
abbrev S32x1024 : Shape := ⟨2, ![32, 1024]⟩
abbrev S32x1024x1 : Shape := ⟨3, ![32, 1024, 1]⟩
abbrev S32x64 : Shape := ⟨2, ![32, 64]⟩
abbrev S32x1x64 : Shape := ⟨3, ![32, 1, 64]⟩
abbrev S32x1024x64 : Shape := ⟨3, ![32, 1024, 64]⟩

abbrev nBuf : Space → Nat
  | .hbm => 25
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x512x1024, .f32⟩
  | .hbm, ⟨2, _⟩ => ⟨S32x64x8x1024, .f32⟩
  | .hbm, ⟨3, _⟩ => ⟨S_, .f32⟩
  | .hbm, ⟨4, _⟩ => ⟨S32x64x1024, .f32⟩
  | .hbm, ⟨5, _⟩ => ⟨S_, .f32⟩
  | .hbm, ⟨6, _⟩ => ⟨S32x64x1024, .f32⟩
  | .hbm, ⟨7, _⟩ => ⟨S32x64x1024, .f32⟩
  | .hbm, ⟨8, _⟩ => ⟨S32x1024x1024, .f32⟩
  | .hbm, ⟨9, _⟩ => ⟨S_, .f32⟩
  | .hbm, ⟨10, _⟩ => ⟨S32x1024, .f32⟩
  | .hbm, ⟨11, _⟩ => ⟨S32x1024x1, .f32⟩
  | .hbm, ⟨12, _⟩ => ⟨S32x64x1024, .f32⟩
  | .hbm, ⟨13, _⟩ => ⟨S_, .f32⟩
  | .hbm, ⟨14, _⟩ => ⟨S32x64, .f32⟩
  | .hbm, ⟨15, _⟩ => ⟨S32x1x64, .f32⟩
  | .hbm, ⟨16, _⟩ => ⟨S32x1024x64, .f32⟩
  | .hbm, ⟨17, _⟩ => ⟨S_, .f32⟩
  | .hbm, ⟨18, _⟩ => ⟨S32x1024x64, .f32⟩
  | .hbm, ⟨19, _⟩ => ⟨S32x1024x64, .f32⟩
  | .hbm, ⟨20, _⟩ => ⟨S32x1024x64, .f32⟩
  | .hbm, ⟨21, _⟩ => ⟨S32x1024x64, .f32⟩
  | .hbm, ⟨22, _⟩ => ⟨S32x1024x64, .f32⟩
  | .hbm, ⟨23, _⟩ => ⟨S32x1024x64, .f32⟩
  | .hbm, ⟨24, _⟩ => ⟨S32x1024x64, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S32x512x1024_S32x64x8x1024 : S32x512x1024.ShapeCasts S32x64x8x1024
  reducesTo_S32x64x8x1024_S32x64x1024_d2 : S32x64x8x1024.ReducesTo [2] S32x64x1024
  h_S_ : 0 < S_.numel
  bcast_S_S32x64x1024 : S_.BroadcastsInDim S32x64x1024 (![] : Fin 0 → Fin S32x64x1024.rank)
  reducesTo_S32x1024x1024_S32x1024_d2 : S32x1024x1024.ReducesTo [2] S32x1024
  bcast_S32x1024_S32x1024x1_0_1 : S32x1024.BroadcastsInDim S32x1024x1 (![0, 1] : Fin 2 → Fin S32x1024x1.rank)
  reducesTo_S32x64x1024_S32x64_d2 : S32x64x1024.ReducesTo [2] S32x64
  bcast_S32x64_S32x1x64_0_2 : S32x64.BroadcastsInDim S32x1x64 (![0, 2] : Fin 2 → Fin S32x1x64.rank)
  bcast_S_S32x1024x64 : S_.BroadcastsInDim S32x1024x64 (![] : Fin 0 → Fin S32x1024x64.rank)
  bcast_S32x1024x1_S32x1024x64_0_1_2 : S32x1024x1.BroadcastsInDim S32x1024x64 (![0, 1, 2] : Fin 3 → Fin S32x1024x64.rank)
  bcast_S32x1x64_S32x1024x64_0_1_2 : S32x1x64.BroadcastsInDim S32x1024x64 (![0, 1, 2] : Fin 3 → Fin S32x1024x64.rank)
  dot_S32x1024x1024_S32x64x1024_S32x1024x64_2_2_1_1_0_0_wf : DotDims.WF S32x1024x1024 S32x64x1024 S32x1024x64 [2] [2] [1] [1] [0] [0]

variable [Facts₀]

def dot_S32x1024x1024_S32x64x1024_S32x1024x64_2_2_1_1_0_0 : DotDims S32x1024x1024 S32x64x1024 S32x1024x64 where
  lhsContracting := [2]
  rhsContracting := [2]
  lhsNonContracting := [1]
  rhsNonContracting := [1]
  lhsBatch := [0]
  rhsBatch := [0]
  wf := dot_S32x1024x1024_S32x64x1024_S32x1024x64_2_2_1_1_0_0_wf

class Facts : Prop extends Facts₀ where

variable [Facts]
-- ==== Proof.DistLaw.lean ====
/-
  The arithmetic of the squared-distance layer, with no program in sight.

  For a query row q and a prototype row p over 1024 channels the layer's result is
  -(|q|^2 - 2 q.p + |p|^2); the kernel arranges it as (2 q.p - |q|^2) - |p|^2 and the
  reference as -((|q|^2 - 2 q.p) + |p|^2).  Over the real numbers these are one number.  On
  the extended reals they need not be (inf - inf is bottom, and negation does not
  distribute over such a sum), so the law is stated for entries that ARE reals: the three
  sums are then finite sums of reals, and the identity is the ring identity
  2a - b - c = -((b - 2a) + c).

  The prototype is the mean of eight support rows: (0 + sum of 8 reals) / 8, again a real.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-! ## The two float constants -/

/-- The word of `2.0` denotes the real number 2. -/
theorem ofBits_two : Ideal.ofBits .f32 0x40000000#32 = ((2 : ℝ) : EReal) := by
  simp [Ideal.ofBits, Ideal.ieee, -EReal.coe_mul]; norm_num

/-- The word of `8.0` denotes the real number 8. -/
theorem ofBits_eight : Ideal.ofBits .f32 0x41000000#32 = ((8 : ℝ) : EReal) := by
  simp [Ideal.ofBits, Ideal.ieee, -EReal.coe_mul]; norm_num

/-- The word of the positive infinity denotes the top of the extended reals. -/
theorem ofBits_inf : Ideal.ofBits .f32 0x7F800000#32 = ⊤ := by
  simp [Ideal.ofBits, Ideal.ieee]

/-! ## Real entries -/

/-- An extended real that is a real number (neither infinity). -/
def IsReal (x : EReal) : Prop := ∃ r : ℝ, x = (r : EReal)

/-- An extended real whose absolute value max x (-x) lies below the top is a real: the top has
    absolute value the top, and so has the bottom. -/
theorem isReal_of_abs_lt_top (x : EReal) (h : max x (-x) < ⊤) : IsReal x := by
  have hx1 : x ≠ ⊤ := by rintro rfl; simp at h
  have hx2 : x ≠ ⊥ := by rintro rfl; simp at h
  exact ⟨x.toReal, (EReal.coe_toReal hx1 hx2).symm⟩

/-- A finite sum of coerced reals is the coerced sum. -/
theorem sum_coe {ι : Type} (s : Finset ι) (f : ι → ℝ) :
    (∑ k ∈ s, ((f k : ℝ) : EReal)) = (((∑ k ∈ s, f k) : ℝ) : EReal) := by
  classical
  refine Finset.induction_on s (by simp) fun a s ha ih => ?_
  rw [Finset.sum_insert ha, Finset.sum_insert ha, ih, EReal.coe_add]

/-- The ring identity behind the two arrangements, on coerced reals. -/
theorem arrange (a b c : ℝ) :
    ((2 : ℝ) : EReal) * (a : EReal) - (b : EReal) - (c : EReal)
      = -(((0 + (b : EReal)) - ((2 : ℝ) : EReal) * (a : EReal)) + (0 + (c : EReal))) := by
  rw [zero_add, zero_add, ← EReal.coe_mul, ← EReal.coe_sub, ← EReal.coe_sub, ← EReal.coe_sub, ← EReal.coe_add,
    ← EReal.coe_neg, EReal.coe_eq_coe_iff]
  ring

/-! ## The layer at one output entry -/

/-- Queries [32, 1024, 1024], prototypes [32, 64, 1024], distances [32, 1024, 64]. -/
abbrev SQ : Shape := ⟨3, ![32, 1024, 1024]⟩
abbrev SP : Shape := ⟨3, ![32, 64, 1024]⟩
abbrev SD : Shape := ⟨3, ![32, 1024, 64]⟩

/-- The inner product of query row (t, q) with prototype row (t, w). -/
def dotQP (Q : FVec Ideal SQ .f32) (P : FVec Ideal SP .f32) (t : Fin 32) (q : Fin 1024) (w : Fin 64) : EReal :=
  ∑ c : Fin 1024, Q (ix3 t q c) * P (ix3 t w c)

/-- The squared norm of query row (t, q). -/
def normQ (Q : FVec Ideal SQ .f32) (t : Fin 32) (q : Fin 1024) : EReal :=
  ∑ c : Fin 1024, Q (ix3 t q c) * Q (ix3 t q c)

/-- The squared norm of prototype row (t, w). -/
def normP (P : FVec Ideal SP .f32) (t : Fin 32) (w : Fin 64) : EReal :=
  ∑ c : Fin 1024, P (ix3 t w c) * P (ix3 t w c)

/-- The kernel's arrangement at entry (t, q, w): (2 q.p - |q|^2) - |p|^2. -/
def kernelForm (Q : FVec Ideal SQ .f32) (P : FVec Ideal SP .f32) (t : Fin 32) (q : Fin 1024) (w : Fin 64) : EReal :=
  Ideal.ofBits .f32 0x40000000#32 * dotQP Q P t q w - normQ Q t q - normP P t w

/-- The reference's arrangement at the same entry: -((|q|^2 - 2 q.p) + |p|^2), each host sum
    started from its initial value, the word of `0.0`. -/
def referenceForm (Q : FVec Ideal SQ .f32) (P : FVec Ideal SP .f32) (t : Fin 32) (q : Fin 1024) (w : Fin 64) : EReal :=
  -(((Ideal.ofBits .f32 0x00000000#32 + normQ Q t q) - Ideal.ofBits .f32 0x40000000#32 * dotQP Q P t q w)
      + (Ideal.ofBits .f32 0x00000000#32 + normP P t w))

/-- With real entries the two arrangements are one number. -/
theorem referenceForm_eq_kernelForm (Q : FVec Ideal SQ .f32) (P : FVec Ideal SP .f32)
    (hQ : ∀ j, IsReal (Q j)) (hP : ∀ j, IsReal (P j)) (t : Fin 32) (q : Fin 1024) (w : Fin 64) :
    referenceForm Q P t q w = kernelForm Q P t q w := by
  choose Qr hQr using hQ
  choose Pr hPr using hP
  unfold referenceForm kernelForm dotQP normQ normP
  simp only [hQr, hPr, ← EReal.coe_mul, sum_coe, ofBits_two, Ideal.ofBits_zero_f32]
  exact (arrange _ _ _).symm

/-- The whole result array in the kernel's arrangement. -/
def dist (Q : FVec Ideal SQ .f32) (P : FVec Ideal SP .f32) : FVec Ideal SD .f32 :=
  fun i => kernelForm Q P (i 0) (i 1) (i 2)

theorem dist_apply (Q : FVec Ideal SQ .f32) (P : FVec Ideal SP .f32) (t : Fin 32) (q : Fin 1024) (w : Fin 64) :
    dist Q P (ix3 t q w) = kernelForm Q P t q w := rfl

/-! ## The mean of eight reals -/

/-- (0 + the sum of eight reals) / 8 is a real. -/
theorem isReal_mean (f : Fin 8 → EReal) (hf : ∀ k, IsReal (f k)) :
    IsReal (Ideal.div (Ideal.ofBits .f32 0x00000000#32 + ∑ k : Fin 8, f k) (Ideal.ofBits .f32 0x41000000#32)) := by
  choose fr hfr using hf
  simp only [hfr, sum_coe, ofBits_eight, Ideal.ofBits_zero_f32, zero_add,
    Ideal.div_coe (by norm_num : (8 : ℝ) ≠ 0), ← EReal.coe_mul]
  exact ⟨_, rfl⟩

end Cert.Dist

end
-- ==== Proof.FiniteInputs.lean ====
/-
  What the precondition says: every entry of both inputs is a real number.

  The precondition is all(|query| < inf) and all(|support| < inf), printed as two reductions by
  `and` of the entrywise comparisons, joined by an `and`.  If the result is 1 then each reduction
  is 1, so each comparison is 1 at every entry, and an extended real whose absolute value is below
  the top is neither infinity.
-/
import proofs.«112290_j10075993276528_1_alg».proof.Pre_finite_inputs
import proofs.«112290_j10075993276528_1_alg».proof.Proof.DistLaw
import Idealize.ShloMosaic.Lib.ReduceAll
import Idealize.ShloMosaic.Lib.ValueIdx

noncomputable section

namespace Cert.Pre_finite_inputs.Decode

open Cert.Pre_finite_inputs Cert.Pre_finite_inputs.Facts Idealize.ShloMosaic Idealize.ShloMosaic.ValueIdx
open Cert.Dist

/-- One entry: if |x i| < inf reads 1 at the ideal values, then x i is a real. -/
theorem real_of_compare {s : Shape} (x : FVec Ideal s .f32)
    (hb : S_.BroadcastsInDim s (![] : Fin 0 → Fin s.rank)) (i : s.Idx)
    (h : cmpf .olt (Host.absf x) (broadcastInDim s ![] hb (constant (F := Ideal) S_ .f32 0x7F800000#32)) i = 1#1) :
    IsReal (x i) := by
  have h' : Ideal.cmp .olt (max (x i) (-(x i))) (Ideal.ofBits .f32 0x7F800000#32) = 1#1 := h
  rw [ofBits_inf] at h'
  by_contra hr
  have hlt : ¬ (max (x i) (-(x i)) < ⊤) := fun hl => hr (isReal_of_abs_lt_top _ hl)
  have h0 : Ideal.cmp .olt (max (x i) (-(x i))) ⊤ = 0#1 := by
    show BitVec.ofBool (decide (max (x i) (-(x i)) < ⊤)) = 0#1
    rw [decide_eq_false hlt]; rfl
  rw [h0] at h'
  exact absurd h' (by decide)

variable [Cert.Pre_finite_inputs.Facts]

/-- Under the precondition both input arrays hold reals only. -/
theorem inputs_real (x0 : FVec Ideal S32x1024x1024 .f32) (x1 : FVec Ideal S32x512x1024 .f32)
    (h : Cert.Pre_finite_inputs.fn (F := Ideal) x0 x1 = fun _ => 1#1) :
    (∀ j, IsReal (x0 j)) ∧ (∀ j, IsReal (x1 j)) := by
  have h1 : IntOp.andi
      (Host.reduce IntOp.andi
        (cmpf .olt (Host.absf x0) (broadcastInDim S32x1024x1024 ![] bcast_S_S32x1024x1024 (constant (F := Ideal) S_ .f32 0x7F800000#32)))
        (constantI S_ 1 1#1) reducesTo_S32x1024x1024_S_d0_1_2 h_S_ ix0)
      (Host.reduce IntOp.andi
        (cmpf .olt (Host.absf x1) (broadcastInDim S32x512x1024 ![] bcast_S_S32x512x1024 (constant (F := Ideal) S_ .f32 0x7F800000#32)))
        (constantI S_ 1 1#1) reducesTo_S32x512x1024_S_d0_1_2 h_S_ ix0) = 1#1 := congrFun h ix0
  obtain ⟨ha, hb⟩ := IntOp.andi_eq_one.1 h1
  haveI : Subsingleton S_.Idx := ⟨fun a b => funext fun d => d.elim0⟩
  exact ⟨fun j => real_of_compare x0 _ j (Host.reduce_andi_all _ _ _ _ _ ha j),
    fun j => real_of_compare x1 _ j (Host.reduce_andi_all _ _ _ _ _ hb j)⟩

end Cert.Pre_finite_inputs.Decode

end
-- ==== Proof.BodyValue.lean ====
/-
  What the kernel body computes for one batch entry, read entry by entry at the ideal values.

  The body loads a query block x0 : [1, 1024, 1024] and a prototype block x1 : [1, 64, 1024],
  drops their unit axes, and stores, as a [1, 1024, 64] block,

      (2 * (x0 @ x1^T) - rowsums(x0 * x0)[:, None]) - rowsums(x1 * x1)[None, :].

  At the ideal values the narrowing to bf16 before the matrix product is the identity, the matrix
  product into a zero accumulator is the plain sum over the 1024 channels, and a lane reduction is
  the plain sum over its axis.  So entry (q, w) of the stored block is

      2 * sum_c x0[0,q,c] * x1[0,w,c]  -  sum_c x0[0,q,c]^2  -  sum_c x1[0,w,c]^2.
-/
import proofs.«112290_j10075993276528_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## Two column layouts: a vector as a one-column matrix, and that column spread over many -/

/-- A vector [a] recast as a column [a, 1] reads, at (i, u), the vector at i. -/
theorem column_of_vector {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem spread_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The matrix product x @ y^T at an entry -/

theorem lhs_axis0 (i : S1024x64.Idx) (k : dot_S1024x1024_S64x1024_S1024x64_1_1_0_0_n_n.contr.Idx) :
    (dot_S1024x1024_S64x1024_S1024x64_1_1_0_0_n_n.lhsIdx i k 0).val = (i 0).val := by
  unfold DotDims.lhsIdx
  rw [dif_neg (show ¬(0 : Fin S1024x1024.rank) ∈ dot_S1024x1024_S64x1024_S1024x64_1_1_0_0_n_n.lhsBatch by decide),
    dif_pos (show (0 : Fin S1024x1024.rank) ∈ dot_S1024x1024_S64x1024_S1024x64_1_1_0_0_n_n.lhsNonContracting by decide)]
  rfl
theorem lhs_axis1 (i : S1024x64.Idx) (k : dot_S1024x1024_S64x1024_S1024x64_1_1_0_0_n_n.contr.Idx) :
    (dot_S1024x1024_S64x1024_S1024x64_1_1_0_0_n_n.lhsIdx i k 1).val = (k ⟨0, by decide⟩).val :=
  dot_S1024x1024_S64x1024_S1024x64_1_1_0_0_n_n.lhsIdx_val_of_single rfl i k
theorem rhs_axis0 (i : S1024x64.Idx) (k : dot_S1024x1024_S64x1024_S1024x64_1_1_0_0_n_n.contr.Idx) :
    (dot_S1024x1024_S64x1024_S1024x64_1_1_0_0_n_n.rhsIdx i k 0).val = (i 1).val := by
  unfold DotDims.rhsIdx
  rw [dif_neg (show ¬(0 : Fin S64x1024.rank) ∈ dot_S1024x1024_S64x1024_S1024x64_1_1_0_0_n_n.rhsBatch by decide),
    dif_pos (show (0 : Fin S64x1024.rank) ∈ dot_S1024x1024_S64x1024_S1024x64_1_1_0_0_n_n.rhsNonContracting by decide)]
  rfl
theorem rhs_axis1 (i : S1024x64.Idx) (k : dot_S1024x1024_S64x1024_S1024x64_1_1_0_0_n_n.contr.Idx) :
    (dot_S1024x1024_S64x1024_S1024x64_1_1_0_0_n_n.rhsIdx i k 1).val = (k ⟨0, by decide⟩).val :=
  dot_S1024x1024_S64x1024_S1024x64_1_1_0_0_n_n.rhsIdx_val_of_single rfl i k

/-- Entry (q, w) of `a @ b^T` accumulated into zero: the sum over the channel c of a[q, c] * b[w, c]. -/
theorem product_at (a : FVec Ideal S1024x1024 .bf16) (b : FVec Ideal S64x1024 .bf16) (q : Fin 1024) (w : Fin 64) :
    matmul dot_S1024x1024_S64x1024_S1024x64_1_1_0_0_n_n none a b (constant S1024x64 .f32 0x00000000#32) (ix2 q w)
      = ∑ c : Fin 1024, a (ix2 q c) * b (ix2 w c) := by
  simp only [matmul]
  rw [Ideal.matmul_constant_zero_apply,
    ← Equiv.sum_comp (ValueIdx.contrEquiv1 dot_S1024x1024_S64x1024_S1024x64_1_1_0_0_n_n 1024 rfl rfl).symm]
  refine Finset.sum_congr rfl fun k _ => ?_
  have hk := ValueIdx.contrEquiv1_symm_val dot_S1024x1024_S64x1024_S1024x64_1_1_0_0_n_n 1024 rfl rfl k
  have el : dot_S1024x1024_S64x1024_S1024x64_1_1_0_0_n_n.lhsIdx (ix2 q w)
      ((ValueIdx.contrEquiv1 dot_S1024x1024_S64x1024_S1024x64_1_1_0_0_n_n 1024 rfl rfl).symm k) = ix2 q k :=
    funext fun ax => Fin.ext (by
      match ax with
      | ⟨0, _⟩ => exact lhs_axis0 _ _
      | ⟨1, _⟩ => exact (lhs_axis1 _ _).trans hk)
  have er : dot_S1024x1024_S64x1024_S1024x64_1_1_0_0_n_n.rhsIdx (ix2 q w)
      ((ValueIdx.contrEquiv1 dot_S1024x1024_S64x1024_S1024x64_1_1_0_0_n_n 1024 rfl rfl).symm k) = ix2 w k :=
    funext fun ax => Fin.ext (by
      match ax with
      | ⟨0, _⟩ => exact rhs_axis0 _ _
      | ⟨1, _⟩ => exact (rhs_axis1 _ _).trans hk)
  rw [el, er]

/-! ## The two row-sum reductions at an entry -/

/-- The lane sum of a [1024, 1024] matrix at row q: the sum over the channel. -/
theorem rowsum_query (v : FVec Ideal S1024x1024 .f32) (hφ : FKind.Formats .f32)
    (hacc : (0x00000000#32 : BitVec 32) = FKind.add.neutral .f32 hφ) (q : Fin 1024) :
    multiReduction .add [1] S1024 v 0x00000000#32 reduces_S1024x1024_S1024 hφ hacc (ix1 q)
      = ∑ c : Fin 1024, v (ix2 q c) := by
  refine (Ideal.multiReduction_add_single v 0x00000000#32 reduces_S1024x1024_S1024 hφ hacc (ix1 q)).trans ?_
  refine Finset.sum_congr rfl fun k _ => congrArg v (funext fun ax => Fin.ext ?_)
  match ax with
  | ⟨0, _⟩ => rfl
  | ⟨1, _⟩ => rfl

/-- The lane sum of a [64, 1024] matrix at row w. -/
theorem rowsum_proto (v : FVec Ideal S64x1024 .f32) (hφ : FKind.Formats .f32)
    (hacc : (0x00000000#32 : BitVec 32) = FKind.add.neutral .f32 hφ) (w : Fin 64) :
    multiReduction .add [1] S64 v 0x00000000#32 reduces_S64x1024_S64 hφ hacc (ix1 w)
      = ∑ c : Fin 1024, v (ix2 w c) := by
  refine (Ideal.multiReduction_add_single v 0x00000000#32 reduces_S64x1024_S64 hφ hacc (ix1 w)).trans ?_
  refine Finset.sum_congr rfl fun k _ => congrArg v (funext fun ax => Fin.ext ?_)
  match ax with
  | ⟨0, _⟩ => rfl
  | ⟨1, _⟩ => rfl

/-! ## The stored block at an entry -/

/-- Entry (u, q, w) of the block the body stores, from the two loaded blocks. -/
theorem stored_at (x0 : FVec Ideal S1x1024x1024 .f32) (x1 : FVec Ideal S1x64x1024 .f32) (u : Fin 1) (q : Fin 1024) (w : Fin 64) :
    k0_pay1 (F := Ideal) x0 x1 (ix3 u q w)
      = Ideal.ofBits .f32 0x40000000#32 * (∑ c : Fin 1024, x0 (ix3 (0 : Fin 1) q c) * x1 (ix3 (0 : Fin 1) w c))
          - (∑ c : Fin 1024, x0 (ix3 (0 : Fin 1) q c) * x0 (ix3 (0 : Fin 1) q c))
          - (∑ c : Fin 1024, x1 (ix3 (0 : Fin 1) w c) * x1 (ix3 (0 : Fin 1) w c)) := by
  unfold k0_pay1
  refine (shapeCast_ab_1ab_apply _ shapeCasts_S1024x64_S1x1024x64 u q w).trans ?_
  rw [subf_apply, subf_apply, mulf_apply, broadcast_apply]
  refine congrArg₂ (· - ·) (congrArg₂ (· - ·) (congrArg (_ * ·) ?_) ?_) ?_
  · refine (product_at _ _ q w).trans (Finset.sum_congr rfl fun c _ => ?_)
    rw [truncf_apply, truncf_apply]
    exact congrArg₂ (· * ·) (shapeCast_1ab_ab_apply x0 shapeCasts_S1x1024x1024_S1024x1024 q c)
      (shapeCast_1ab_ab_apply x1 shapeCasts_S1x64x1024_S64x1024 w c)
  · refine (spread_column _ broadcasts_S1024x1_S1024x64 q w).trans ?_
    refine (column_of_vector _ shapeCasts_S1024_S1024x1 q 0).trans ?_
    refine (rowsum_query _ _ _ q).trans (Finset.sum_congr rfl fun c _ => ?_)
    rw [mulf_apply]
    exact congrArg₂ (· * ·) (shapeCast_1ab_ab_apply x0 shapeCasts_S1x1024x1024_S1024x1024 q c)
      (shapeCast_1ab_ab_apply x0 shapeCasts_S1x1024x1024_S1024x1024 q c)
  · refine (broadcastTo_1b_ab_apply _ broadcasts_S1x64_S1024x64 q w).trans ?_
    refine (shapeCast_a_1a_apply _ shapeCasts_S64_S1x64 0 w).trans ?_
    refine (rowsum_proto _ _ _ w).trans (Finset.sum_congr rfl fun c _ => ?_)
    rw [mulf_apply]
    exact congrArg₂ (· * ·) (shapeCast_1ab_ab_apply x1 shapeCasts_S1x64x1024_S64x1024 w c)
      (shapeCast_1ab_ab_apply x1 shapeCasts_S1x64x1024_S64x1024 w c)

end Cert.KernelIdeal.BodyValue

end
-- ==== Proof.KernelValue.lean ====
/-
  The kernel's result array, whole.

  The call runs over a grid of 32 points, one per batch entry.  At point t every window's block is
  block t along the leading axis and the whole of the other two: the query block is queries[t],
  the prototype block is prototypes[t], and the output block is result[t].  The body stores,
  at (q, w) of its output block, the kernel's arrangement of the squared distance of row q of its
  query block to row w of its prototype block.  So what point t writes back is block t of one array,
  the distance array of the queries and the prototypes, and the 32 blocks tile the result:
  after the run the result is that array.  The prototypes are what the host operations before
  the call leave: the mean over the eight shots of each class.
-/
import proofs.«112290_j10075993276528_1_alg».proof.Proof.Gen.KernelIdeal.Value
import proofs.«112290_j10075993276528_1_alg».proof.Proof.BodyValue
import proofs.«112290_j10075993276528_1_alg».proof.Proof.DistLaw

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.Dist

variable (m : (ℓ : Loc nD τ sig) → Buf (Elt Ideal) ℓ) (ρ : Dev nD → PrngReg)

/-! ## The prototypes the call is handed -/

/-- The mean over the eight shots of each class, as @main's host operations compute it from the support features. -/
def protoOf (x1 : FVec Ideal S32x512x1024 .f32) : FVec Ideal S32x64x1024 .f32 :=
  Host.divf (F := Ideal)
    (Host.reduceAdd (F := Ideal) (shapeCast S32x64x8x1024 x1 shapeCasts_S32x512x1024_S32x64x8x1024)
      (constant (F := Ideal) S_ .f32 0x00000000#32) reducesTo_S32x64x8x1024_S32x64x1024_d2 h_S_)
    (broadcastInDim S32x64x1024 ![] bcast_S_S32x64x1024 (constant (F := Ideal) S_ .f32 0x41000000#32))

/-- The array the prototype window stages is that mean of the launch contents of the support features. -/
theorem V_proto (c : Dev nD) :
    (V m c main_v3 : FVec Ideal S32x64x1024 .f32) = protoOf (m ((c : Thread nD τ).loc main_arg1)) := by
  unfold protoOf
  dsimp only [Gen.V, Gen.hostOps0]
  after_results
  rfl

/-! ## The grid: point t works on batch entry t -/

theorem zero_offsets : (![0, 0, 0] : Fin 3 → Nat) = fun _ => 0 := funext fun a => by fin_cases a <;> rfl

/-- The printed index maps, decided over the 32 points: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch entry of a grid point. -/
abbrev batch (t : Fin cfg0.N) : Fin 32 := Fin.cast N_0 t

/-- Entry (u, q, k) of the query block at point t is the query array at (t, q, k). -/
theorem query_block (c : Dev nD) (t : Fin cfg0.N) (u : Fin 1) (q : Fin 1024) (k : Fin 1024) :
    (iblk m c 0 t : FVec Ideal S1x1024x1024 .f32) (ix3 u q k)
      = (V m c main_arg0 : FVec Ideal S32x1024x1024 .f32) (ix3 (batch t) q k) := by
  obtain ⟨e0, e1, e2, -⟩ := idx_facts t
  show V m c main_arg0 (((cfg0.win 0).blk t).view.emb (ix3 u q k)) = V m c main_arg0 (ix3 (batch t) q k)
  refine congrArg (V m c main_arg0) (funext fun a => Fin.ext ?_)
  match a with
  | ⟨0, _⟩ => show win0_0.index t (0 : Fin 3) * 1 + 1 * u.val = t.val; have := u.isLt; omega
  | ⟨1, _⟩ => show win0_0.index t (1 : Fin 3) * 1024 + 1 * q.val = q.val; omega
  | ⟨2, _⟩ => show win0_0.index t (2 : Fin 3) * 1024 + 1 * k.val = k.val; omega

/-- Entry (u, w, k) of the prototype block at point t is the prototype array at (t, w, k). -/
theorem proto_block (c : Dev nD) (t : Fin cfg0.N) (u : Fin 1) (w : Fin 64) (k : Fin 1024) :
    (iblk m c 1 t : FVec Ideal S1x64x1024 .f32) (ix3 u w k)
      = (V m c main_v3 : FVec Ideal S32x64x1024 .f32) (ix3 (batch t) w k) := by
  obtain ⟨-, -, -, e0, e1, e2, -⟩ := idx_facts t
  show V m c main_v3 (((cfg0.win 1).blk t).view.emb (ix3 u w k)) = V m c main_v3 (ix3 (batch t) w k)
  refine congrArg (V m c main_v3) (funext fun a => Fin.ext ?_)
  match a with
  | ⟨0, _⟩ => show win0_1.index t (0 : Fin 3) * 1 + 1 * u.val = t.val; have := u.isLt; omega
  | ⟨1, _⟩ => show win0_1.index t (1 : Fin 3) * 64 + 1 * w.val = w.val; omega
  | ⟨2, _⟩ => show win0_1.index t (2 : Fin 3) * 1024 + 1 * k.val = k.val; omega

/-- Entry (u, q, w) of the output block at point t sits at (t, q, w) of the result array. -/
theorem out_block (t : Fin cfg0.N) (u : Fin 1) (q : Fin 1024) (w : Fin 64) :
    ((cfg0.win 2).blk t).view.emb (ix3 u q w) = (ix3 (batch t) q w : S32x1024x64.Idx) := by
  obtain ⟨-, -, -, -, -, -, e0, e1, e2⟩ := idx_facts t
  refine funext fun a => Fin.ext ?_
  match a with
  | ⟨0, _⟩ => show win0_2.index t (0 : Fin 3) * 1 + 1 * u.val = t.val; have := u.isLt; omega
  | ⟨1, _⟩ => show win0_2.index t (1 : Fin 3) * 1024 + 1 * q.val = q.val; omega
  | ⟨2, _⟩ => show win0_2.index t (2 : Fin 3) * 64 + 1 * w.val = w.val; omega

/-! ## What a point writes back -/

/-- The result array: the distance array of the queries and the prototypes as the call finds them. -/
abbrev result (c : Dev nD) : FVec Ideal S32x1024x64 .f32 :=
  dist (V m c main_arg0) (V m c main_v3)

/-- Point t writes back block t of the distance array. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero zero_offsets]
  simp only [View.ld_unit_zero (S := S1x1024x1024) zero_offsets, View.ld_unit_zero (S := S1x64x1024) zero_offsets]
  refine funext fun (j : S1x1024x64.Idx) => ?_
  obtain ⟨u, q, w, rfl⟩ : ∃ (u : Fin 1) (q : Fin 1024) (w : Fin 64), j = ix3 u q w := ⟨j 0, j 1, j 2, eq_ix3 j⟩
  show k0_pay1 (F := Ideal) (iblk m c 0 t) (iblk m c 1 t) (ix3 u q w)
    = result m c (((cfg0.win 2).blk t).view.emb (ix3 u q w))
  rw [out_block t u q w]
  refine (BodyValue.stored_at (iblk m c 0 t) (iblk m c 1 t) u q w).trans ?_
  show _ = kernelForm (V m c main_arg0) (V m c main_v3) (batch t) q w
  unfold kernelForm dotQP normQ normP
  simp only [query_block m c t, proto_block m c t]

/-! ## The blocks tile the result -/

/-- An index of the result is in point t's block iff each coordinate is in the block's range on its axis. -/
theorem mem_blk (t : Fin cfg0.N) (i : S32x1024x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v4).slice (win0_2.rect t)).set ↔ _
  rw [View.set_slice_whole, Rect.mem_set_unit]
  exact Iff.rfl

/-- Entry (t, q, w) of the result lies in the block of point t, which is written back. -/
theorem cover (i : S32x1024x64.Idx) :
    ∃ t : Fin cfg0.N, (cfg0.win 2).flush t = true ∧ i ∈ ((cfg0.win 2).blk t).view.set := by
  have h0 : (i 0).val < 32 := (i 0).isLt
  have h1 : (i 1).val < 1024 := (i 1).isLt
  have h2 : (i 2).val < 64 := (i 2).isLt
  have hN : cfg0.N = 32 := N_0
  refine ⟨⟨(i 0).val, by rw [hN]; exact h0⟩, flush0_2 _, ?_⟩
  rw [mem_blk]
  obtain ⟨-, -, -, -, -, -, e0, e1, e2⟩ := idx_facts ⟨(i 0).val, by rw [hN]; exact h0⟩
  intro a
  match a with
  | ⟨0, _⟩ =>
    show win0_2.index _ (0 : Fin 3) * 1 ≤ (i 0).val ∧ (i 0).val < win0_2.index _ (0 : Fin 3) * 1 + 1
    rw [e0]; show (i 0).val * 1 ≤ (i 0).val ∧ (i 0).val < (i 0).val * 1 + 1; omega
  | ⟨1, _⟩ =>
    show win0_2.index _ (1 : Fin 3) * 1024 ≤ (i 1).val ∧ (i 1).val < win0_2.index _ (1 : Fin 3) * 1024 + 1024
    rw [e1]; omega
  | ⟨2, _⟩ =>
    show win0_2.index _ (2 : Fin 3) * 64 ≤ (i 2).val ∧ (i 2).val < win0_2.index _ (2 : Fin 3) * 64 + 64
    rw [e2]; omega

/-- After the run the result array is the distance array. -/
theorem final (c : Dev nD) : (dats m 0 c).arrAt 2 cfg0.N = result m c :=
  (dats m 0 c).arrAt_eq_of_cover 2 (result m c) (fun t _ => flushed_eq m c t) cover

/-! ## The run, read -/

/-- Every weakly fair execution of the kernel program ends with the result at the distance array of the
    query features and the mean prototypes of the support features, both as launched, and the arguments unchanged. -/
theorem run : θ_run defs (onTc (τ := τ) (main (F := Ideal))) ⟨m, fun _ => 0, ρ⟩ fun r => ∀ c : Dev nD,
      r.2.mem ((c : Thread nD τ).loc main_v4)
        = dist (m ((c : Thread nD τ).loc main_arg0)) (protoOf (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (final m c)).trans (by
      show dist (V m c main_arg0) (V m c main_v3) = _
      rw [V_main_arg0 m c, V_proto m c]), (h c).2⟩)
    (Value.run_blocks m ρ)

end Cert.KernelIdeal.ArrayValue

end
-- ==== Proof.RefValue.lean ====
/-
  The reference program at an entry: it is the reference's arrangement of the squared distance,
  over the query array and the prototype array (the mean of the eight support rows of a class).

  The reference's stages are read one operation at a time by the generated read-at-an-index lemmas;
  what is written here is that the composed index maps land on the rows one expects:
  the query norm at (t, q, w) sums row (t, q), the prototype norm sums row (t, w), and the
  batched contraction pairs row (t, q) of the queries with row (t, w) of the prototypes.
  With real inputs every prototype entry is a real, so the reference's arrangement is the kernel's.
-/
import proofs.«112290_j10075993276528_1_alg».proof.Proof.Gen.ReferenceIdeal.Read
import proofs.«112290_j10075993276528_1_alg».proof.Proof.DistLaw

noncomputable section

namespace Cert.ReferenceIdeal.RefValue

open Cert.ReferenceIdeal Cert.ReferenceIdeal.Gen Cert.ReferenceIdeal.Read Idealize.ShloMosaic Idealize.ShloMosaic.ValueIdx
open Cert.Dist

/-- The prototype array as the reference computes it: stage %3, the mean over the eight shots. -/
abbrev proto (x1 : FVec Ideal S32x512x1024 .f32) : FVec Ideal S32x64x1024 .f32 := val_main_v3 (F := Ideal) x1

/-- With real support features every prototype entry is a real: (0 + eight reals) / 8. -/
theorem proto_real (x1 : FVec Ideal S32x512x1024 .f32) (h1 : ∀ j, IsReal (x1 j)) (j : S32x64x1024.Idx) :
    IsReal (proto x1 j) := by
  show IsReal (val_main_v3 (F := Ideal) x1 j)
  rw [val_main_v3_apply, val_main_v1_apply, val_main_v2_apply, val_main_cst_0_apply, val_main_cst_apply]
  simp only [val_main_v0_apply, Ideal.hostDivf_def, Ideal.ofBits_def]
  exact isReal_mean _ fun k => h1 _

/-! ## Where the composed index maps land -/

theorem row_query_norm (t : Fin 32) (q : Fin 1024) (w : Fin 64) (k : Fin 1024) :
    idx_main_v5 (idx_main_v6 (idx_main_v13 (ix3 t q w))) k = ix3 t q k :=
  funext fun a => Fin.ext (by match a with | ⟨0, _⟩ => rfl | ⟨1, _⟩ => rfl | ⟨2, _⟩ => rfl)

theorem row_proto_norm (t : Fin 32) (q : Fin 1024) (w : Fin 64) (k : Fin 1024) :
    idx_main_v8 (idx_main_v9 (idx_main_v15 (ix3 t q w))) k = ix3 t w k :=
  funext fun a => Fin.ext (by match a with | ⟨0, _⟩ => rfl | ⟨1, _⟩ => rfl | ⟨2, _⟩ => rfl)

theorem row_product_left (t : Fin 32) (q : Fin 1024) (w : Fin 64) (k : Fin 1024) :
    lidx_main_v10 (ix3 t q w) k = ix3 t q k :=
  funext fun a => Fin.ext (by match a with | ⟨0, _⟩ => rfl | ⟨1, _⟩ => rfl | ⟨2, _⟩ => rfl)

theorem row_product_right (t : Fin 32) (q : Fin 1024) (w : Fin 64) (k : Fin 1024) :
    ridx_main_v10 (ix3 t q w) k = ix3 t w k :=
  funext fun a => Fin.ext (by match a with | ⟨0, _⟩ => rfl | ⟨1, _⟩ => rfl | ⟨2, _⟩ => rfl)

/-! ## The reference's result -/

/-- Entry (t, q, w) of the reference's result is its arrangement of the squared distance. -/
theorem result_at (x0 : FVec Ideal S32x1024x1024 .f32) (x1 : FVec Ideal S32x512x1024 .f32)
    (t : Fin 32) (q : Fin 1024) (w : Fin 64) :
    val_main_v17 (F := Ideal) x0 x1 (ix3 t q w) = referenceForm x0 (proto x1) t q w := by
  rw [val_main_v17_apply, val_main_v16_apply, val_main_v14_apply, val_main_v13_apply, val_main_v6_apply,
    val_main_v5_apply, val_main_v12_apply, val_main_v11_apply, val_main_v10_apply, val_main_v15_apply,
    val_main_v9_apply, val_main_v8_apply]
  simp only [val_main_v4_apply, val_main_v7_apply, val_main_cst_1_apply, val_main_cst_2_apply, val_main_cst_3_apply,
    row_query_norm, row_proto_norm, row_product_left, row_product_right,
    Ideal.hostNegf_def, Ideal.negf_def, Ideal.addf_def, Ideal.subf_def, Ideal.mulf_def, Ideal.ofBits_def]
  rfl

/-- With real inputs the reference's result array is the distance array of the queries and the prototypes. -/
theorem result_eq (x0 : FVec Ideal S32x1024x1024 .f32) (x1 : FVec Ideal S32x512x1024 .f32)
    (h0 : ∀ j, IsReal (x0 j)) (h1 : ∀ j, IsReal (x1 j)) :
    val_main_v17 (F := Ideal) x0 x1 = dist x0 (proto x1) := by
  funext i
  obtain ⟨t, q, w, rfl⟩ : ∃ (t : Fin 32) (q : Fin 1024) (w : Fin 64), i = ix3 t q w := ⟨i 0, i 1, i 2, eq_ix3 i⟩
  rw [result_at, dist_apply]
  exact referenceForm_eq_kernelForm x0 (proto x1) h0 (proto_real x1 h1) t q w

end Cert.ReferenceIdeal.RefValue

end
-- ==== Proof.lean ====
/-
  The certificate of the prototype-distance layer: for each of 32 batch entries, 1024 query rows
  against 64 class prototypes (the mean of the class's 8 support rows), the negated squared
  Euclidean distance -(|q|^2 - 2 q.p + |p|^2) over 1024 channels.

  The kernel computes the prototypes on the host exactly as the reference does, then one call per
  batch entry stores (2 q.p - |q|^2) - |p|^2, with q.p a matrix product, and the two norms lane
  sums.  The reference computes -((|q|^2 - 2 q.p) + |p|^2) with a batched contraction.  At the
  ideal values the matrix product and the contraction are the same sum over the channel, a lane sum
  and a host sum are the same sum, and the two arrangements are one real number as soon as every
  entry is a real, which the precondition gives: finite inputs have real means, and finite sums and
  products of reals are reals.  So both programs end at one array: the distance array of the queries
  and the prototypes in the kernel's arrangement.

  The frames are the generated ones; the reference's is its generated run with the result dropped.
  The idealization rewrote nothing, so it is preserved trivially.
-/
import proofs.«112290_j10075993276528_1_alg».proof.Defs
import proofs.«112290_j10075993276528_1_alg».proof.Proof.Gen.Kernel
import proofs.«112290_j10075993276528_1_alg».proof.Proof.Gen.Kernel.Skeleton
import proofs.«112290_j10075993276528_1_alg».proof.Proof.Gen.Kernel.Launch
import proofs.«112290_j10075993276528_1_alg».proof.Proof.Gen.Kernel.Points
import proofs.«112290_j10075993276528_1_alg».proof.Proof.Gen.Kernel.Frame
import proofs.«112290_j10075993276528_1_alg».proof.Proof.Gen.KernelIdeal
import proofs.«112290_j10075993276528_1_alg».proof.Proof.Gen.KernelIdeal.Skeleton
import proofs.«112290_j10075993276528_1_alg».proof.Proof.Gen.KernelIdeal.Launch
import proofs.«112290_j10075993276528_1_alg».proof.Proof.Gen.KernelIdeal.Points
import proofs.«112290_j10075993276528_1_alg».proof.Proof.Gen.KernelIdeal.Frame
import proofs.«112290_j10075993276528_1_alg».proof.Proof.Gen.ReferenceIdeal
import proofs.«112290_j10075993276528_1_alg».proof.Proof.Gen.Pre_finite_inputs
import proofs.«112290_j10075993276528_1_alg».proof.Proof.Gen.KernelIdeal.Value
import proofs.«112290_j10075993276528_1_alg».proof.Proof.Gen.ReferenceIdeal.Run
import proofs.«112290_j10075993276528_1_alg».proof.Proof.Gen.ReferenceIdeal.Read
import proofs.«112290_j10075993276528_1_alg».proof.Proof.DistLaw
import proofs.«112290_j10075993276528_1_alg».proof.Proof.FiniteInputs
import proofs.«112290_j10075993276528_1_alg».proof.Proof.KernelValue
import proofs.«112290_j10075993276528_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the distance array of the queries and the mean prototypes. -/
theorem algebraic : Cert.algebraic_KernelIdeal_ReferenceIdeal := by
  intro m ρ m' ρ' hpre hagree
  refine ⟨fun c => Cert.Dist.dist (m ((c.tc : Thread Cert.KernelIdeal.nD Cert.KernelIdeal.τ).loc Cert.KernelIdeal.main_arg0))
      (Cert.KernelIdeal.ArrayValue.protoOf (m ((c.tc : Thread Cert.KernelIdeal.nD Cert.KernelIdeal.τ).loc Cert.KernelIdeal.main_arg1))),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Decode.inputs_real _ _ (hpre c)
  rw [(hagree c).1, (hagree c).2, Cert.ReferenceIdeal.Read.val_main_v17_eq,
    Cert.ReferenceIdeal.RefValue.result_eq _ _ h0 h1]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
